-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S100000 32) (main_arg1 : IVec S2x600000 32) (main_arg2 : FVec F S50000x128 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000 : Shape := ⟨1, ![100000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S700000 : Shape := ⟨1, ![700000]⟩
abbrev S_ : Shape := ⟨0, ![]⟩
abbrev S100000x1 : Shape := ⟨2, ![100000, 1]⟩
abbrev S100000x128 : Shape := ⟨2, ![100000, 128]⟩
abbrev S5000x128 : Shape := ⟨2, ![5000, 128]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 139
  | .vmem => 20
  | .smem => 0
  | _ => 0

abbrev hbmTy0_0 (i : Nat) : BufTy := match i % 128 with
  | 0 => ⟨S100000, .i32⟩
  | 1 => ⟨S2x600000, .i32⟩
  | 2 => ⟨S50000x128, .f32⟩
  | 3 => ⟨S128x128, .f32⟩
  | 4 => ⟨S128, .f32⟩
  | 5 => ⟨S128x128, .f32⟩
  | 6 => ⟨S128, .f32⟩
  | 7 => ⟨S100000, .i32⟩
  | 8 => ⟨S1x600000, .i32⟩
  | 9 => ⟨S600000, .i32⟩
  | 10 => ⟨S700000, .i32⟩
  | 11 => ⟨S1x600000, .i32⟩
  | 12 => ⟨S600000, .i32⟩
  | 13 => ⟨S700000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S100000x128, .f32⟩
  | 24 => ⟨S_, .f32⟩
  | 25 => ⟨S100000, .f32⟩
  | 26 => ⟨S_, .i32⟩
  | 27 => ⟨S700000, .i32⟩
  | 28 => ⟨S700000, .i1⟩
  | 29 => ⟨S_, .i32⟩
  | 30 => ⟨S700000, .i32⟩
  | 31 => ⟨S700000, .i32⟩
  | 32 => ⟨S700000, .i32⟩
  | 33 => ⟨S700000x1, .i32⟩
  | 34 => ⟨S_, .f32⟩
  | 35 => ⟨S700000, .f32⟩
  | 36 => ⟨S100000, .f32⟩
  | 37 => ⟨S100000, .f32⟩
  | 38 => ⟨S_, .i32⟩
  | 39 => ⟨S700000, .i32⟩
  | 40 => ⟨S700000, .i1⟩
  | 41 => ⟨S_, .i32⟩
  | 42 => ⟨S700000, .i32⟩
  | 43 => ⟨S700000, .i32⟩
  | 44 => ⟨S700000, .i32⟩
  | 45 => ⟨S700000x1, .i32⟩
  | 46 => ⟨S700000, .f32⟩
  | 47 => ⟨S_, .i32⟩
  | 48 => ⟨S700000, .i32⟩
  | 49 => ⟨S700000, .i1⟩
  | 50 => ⟨S_, .i32⟩
  | 51 => ⟨S700000, .i32⟩
  | 52 => ⟨S700000, .i32⟩
  | 53 => ⟨S700000, .i32⟩
  | 54 => ⟨S700000x1, .i32⟩
  | 55 => ⟨S700000, .f32⟩
  | 56 => ⟨S700000, .f32⟩
  | 57 => ⟨S700000x1, .f32⟩
  | 58 => ⟨S_, .i32⟩
  | 59 => ⟨S700000, .i32⟩
  | 60 => ⟨S700000, .i1⟩
  | 61 => ⟨S_, .i32⟩
  | 62 => ⟨S700000, .i32⟩
  | 63 => ⟨S700000, .i32⟩
  | 64 => ⟨S700000, .i32⟩
  | 65 => ⟨S700000x1, .i32⟩
  | 66 => ⟨S700000x128, .f32⟩
  | 67 => ⟨S700000x128, .f32⟩
  | 68 => ⟨S700000x128, .f32⟩
  | 69 => ⟨S_, .f32⟩
  | 70 => ⟨S100000x128, .f32⟩
  | 71 => ⟨S_, .i32⟩
  | 72 => ⟨S700000, .i32⟩
  | 73 => ⟨S700000, .i1⟩
  | 74 => ⟨S_, .i32⟩
  | 75 => ⟨S700000, .i32⟩
  | 76 => ⟨S700000, .i32⟩
  | 77 => ⟨S700000, .i32⟩
  | 78 => ⟨S700000x1, .i32⟩
  | 79 => ⟨S100000x128, .f32⟩
  | 80 => ⟨S100000x128, .f32⟩
  | 81 => ⟨S100000x128, .f32⟩
  | 82 => ⟨S_, .f32⟩
  | 83 => ⟨S100000, .f32⟩
  | 84 => ⟨S_, .i32⟩
  | 85 => ⟨S700000, .i32⟩
  | 86 => ⟨S700000, .i1⟩
  | 87 => ⟨S_, .i32⟩
  | 88 => ⟨S700000, .i32⟩
  | 89 => ⟨S700000, .i32⟩
  | 90 => ⟨S700000, .i32⟩
  | 91 => ⟨S700000x1, .i32⟩
  | 92 => ⟨S_, .f32⟩
  | 93 => ⟨S700000, .f32⟩
  | 94 => ⟨S100000, .f32⟩
  | 95 => ⟨S100000, .f32⟩
  | 96 => ⟨S_, .i32⟩
  | 97 => ⟨S700000, .i32⟩
  | 98 => ⟨S700000, .i1⟩
  | 99 => ⟨S_, .i32⟩
  | 100 => ⟨S700000, .i32⟩
  | 101 => ⟨S700000, .i32⟩
  | 102 => ⟨S700000, .i32⟩
  | 103 => ⟨S700000x1, .i32⟩
  | 104 => ⟨S700000, .f32⟩
  | 105 => ⟨S_, .i32⟩
  | 106 => ⟨S700000, .i32⟩
  | 107 => ⟨S700000, .i1⟩
  | 108 => ⟨S_, .i32⟩
  | 109 => ⟨S700000, .i32⟩
  | 110 => ⟨S700000, .i32⟩
  | 111 => ⟨S700000, .i32⟩
  | 112 => ⟨S700000x1, .i32⟩
  | 113 => ⟨S700000, .f32⟩
  | 114 => ⟨S700000, .f32⟩
  | 115 => ⟨S700000x1, .f32⟩
  | 116 => ⟨S_, .i32⟩
  | 117 => ⟨S700000, .i32⟩
  | 118 => ⟨S700000, .i1⟩
  | 119 => ⟨S_, .i32⟩
  | 120 => ⟨S700000, .i32⟩
  | 121 => ⟨S700000, .i32⟩
  | 122 => ⟨S700000, .i32⟩
  | 123 => ⟨S700000x1, .i32⟩
  | 124 => ⟨S700000x128, .f32⟩
  | 125 => ⟨S700000x128, .f32⟩
  | 126 => ⟨S700000x128, .f32⟩
  | 127 => ⟨S_, .f32⟩
  | _ => ⟨S100000, .i32⟩

abbrev hbmTy0_1 (i : Nat) : BufTy := match i % 128 with
  | 0 => ⟨S100000x128, .f32⟩
  | 1 => ⟨S_, .i32⟩
  | 2 => ⟨S700000, .i32⟩
  | 3 => ⟨S700000, .i1⟩
  | 4 => ⟨S_, .i32⟩
  | 5 => ⟨S700000, .i32⟩
  | 6 => ⟨S700000, .i32⟩
  | 7 => ⟨S700000, .i32⟩
  | 8 => ⟨S700000x1, .i32⟩
  | 9 => ⟨S100000x128, .f32⟩
  | 10 => ⟨S100000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_17 : Ref sig .tc := ⟨.hbm, 96, rfl⟩
abbrev main_v70 : Ref sig .tc := ⟨.hbm, 97, rfl⟩
abbrev main_v71 : Ref sig .tc := ⟨.hbm, 98, rfl⟩
abbrev main_c_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_19 : Ref sig .tc := ⟨.hbm, 105, rfl⟩
abbrev main_v77 : Ref sig .tc := ⟨.hbm, 106, rfl⟩
abbrev main_v78 : Ref sig .tc := ⟨.hbm, 107, rfl⟩
abbrev main_c_20 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_21 : Ref sig .tc := ⟨.hbm, 116, rfl⟩
abbrev main_v86 : Ref sig .tc := ⟨.hbm, 117, rfl⟩
abbrev main_v87 : Ref sig .tc := ⟨.hbm, 118, rfl⟩
abbrev main_c_22 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_23 : Ref sig .tc := ⟨.hbm, 127, rfl⟩
abbrev main_v95 : Ref sig .tc := ⟨.hbm, 128, rfl⟩
abbrev main_c_24 : Ref sig .tc := ⟨.hbm, 129, rfl⟩
abbrev main_v96 : Ref sig .tc := ⟨.hbm, 130, rfl⟩
abbrev main_v97 : Ref sig .tc := ⟨.hbm, 131, rfl⟩
abbrev main_c_25 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S700000 : S_.BroadcastsInDim S700000 (![] : Fin 0 → Fin S700000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S100000x1_S100000x128_1_0_n_n_0_1_1128_wf : GatherDims.WF S50000x128 S100000x1 S100000x128 [1] [0] [] [0] [] 1 ![1, 128]
  dot_S5000x128_S128x128_S5000x128_1_0_0_1_n_n_wf : DotDims.WF S5000x128 S128x128 S5000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v102) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000 : Shape := ⟨1, ![100000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S700000 : Shape := ⟨1, ![700000]⟩
abbrev S_ : Shape := ⟨0, ![]⟩
abbrev S100000x1 : Shape := ⟨2, ![100000, 1]⟩
abbrev S100000x128 : Shape := ⟨2, ![100000, 128]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 149
  | .vmem => 0
  | .smem => 0
  | _ => 0

abbrev hbmTy0_0 (i : Nat) : BufTy := match i % 128 with
  | 0 => ⟨S100000, .i32⟩
  | 1 => ⟨S2x600000, .i32⟩
  | 2 => ⟨S50000x128, .f32⟩
  | 3 => ⟨S128x128, .f32⟩
  | 4 => ⟨S128, .f32⟩
  | 5 => ⟨S128x128, .f32⟩
  | 6 => ⟨S128, .f32⟩
  | 7 => ⟨S100000, .i32⟩
  | 8 => ⟨S1x600000, .i32⟩
  | 9 => ⟨S600000, .i32⟩
  | 10 => ⟨S700000, .i32⟩
  | 11 => ⟨S1x600000, .i32⟩
  | 12 => ⟨S600000, .i32⟩
  | 13 => ⟨S700000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S100000x128, .f32⟩
  | 24 => ⟨S_, .f32⟩
  | 25 => ⟨S100000, .f32⟩
  | 26 => ⟨S_, .i32⟩
  | 27 => ⟨S700000, .i32⟩
  | 28 => ⟨S700000, .i1⟩
  | 29 => ⟨S_, .i32⟩
  | 30 => ⟨S700000, .i32⟩
  | 31 => ⟨S700000, .i32⟩
  | 32 => ⟨S700000, .i32⟩
  | 33 => ⟨S700000x1, .i32⟩
  | 34 => ⟨S_, .f32⟩
  | 35 => ⟨S700000, .f32⟩
  | 36 => ⟨S100000, .f32⟩
  | 37 => ⟨S100000, .f32⟩
  | 38 => ⟨S_, .i32⟩
  | 39 => ⟨S700000, .i32⟩
  | 40 => ⟨S700000, .i1⟩
  | 41 => ⟨S_, .i32⟩
  | 42 => ⟨S700000, .i32⟩
  | 43 => ⟨S700000, .i32⟩
  | 44 => ⟨S700000, .i32⟩
  | 45 => ⟨S700000x1, .i32⟩
  | 46 => ⟨S700000, .f32⟩
  | 47 => ⟨S_, .i32⟩
  | 48 => ⟨S700000, .i32⟩
  | 49 => ⟨S700000, .i1⟩
  | 50 => ⟨S_, .i32⟩
  | 51 => ⟨S700000, .i32⟩
  | 52 => ⟨S700000, .i32⟩
  | 53 => ⟨S700000, .i32⟩
  | 54 => ⟨S700000x1, .i32⟩
  | 55 => ⟨S700000, .f32⟩
  | 56 => ⟨S700000, .f32⟩
  | 57 => ⟨S700000x1, .f32⟩
  | 58 => ⟨S_, .i32⟩
  | 59 => ⟨S700000, .i32⟩
  | 60 => ⟨S700000, .i1⟩
  | 61 => ⟨S_, .i32⟩
  | 62 => ⟨S700000, .i32⟩
  | 63 => ⟨S700000, .i32⟩
  | 64 => ⟨S700000, .i32⟩
  | 65 => ⟨S700000x1, .i32⟩
  | 66 => ⟨S700000x128, .f32⟩
  | 67 => ⟨S700000x128, .f32⟩
  | 68 => ⟨S700000x128, .f32⟩
  | 69 => ⟨S_, .f32⟩
  | 70 => ⟨S100000x128, .f32⟩
  | 71 => ⟨S_, .i32⟩
  | 72 => ⟨S700000, .i32⟩
  | 73 => ⟨S700000, .i1⟩
  | 74 => ⟨S_, .i32⟩
  | 75 => ⟨S700000, .i32⟩
  | 76 => ⟨S700000, .i32⟩
  | 77 => ⟨S700000, .i32⟩
  | 78 => ⟨S700000x1, .i32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S_, .i32⟩
  | 90 => ⟨S700000, .i32⟩
  | 91 => ⟨S700000, .i1⟩
  | 92 => ⟨S_, .i32⟩
  | 93 => ⟨S700000, .i32⟩
  | 94 => ⟨S700000, .i32⟩
  | 95 => ⟨S700000, .i32⟩
  | 96 => ⟨S700000x1, .i32⟩
  | 97 => ⟨S_, .f32⟩
  | 98 => ⟨S700000, .f32⟩
  | 99 => ⟨S100000, .f32⟩
  | 100 => ⟨S100000, .f32⟩
  | 101 => ⟨S_, .i32⟩
  | 102 => ⟨S700000, .i32⟩
  | 103 => ⟨S700000, .i1⟩
  | 104 => ⟨S_, .i32⟩
  | 105 => ⟨S700000, .i32⟩
  | 106 => ⟨S700000, .i32⟩
  | 107 => ⟨S700000, .i32⟩
  | 108 => ⟨S700000x1, .i32⟩
  | 109 => ⟨S700000, .f32⟩
  | 110 => ⟨S_, .i32⟩
  | 111 => ⟨S700000, .i32⟩
  | 112 => ⟨S700000, .i1⟩
  | 113 => ⟨S_, .i32⟩
  | 114 => ⟨S700000, .i32⟩
  | 115 => ⟨S700000, .i32⟩
  | 116 => ⟨S700000, .i32⟩
  | 117 => ⟨S700000x1, .i32⟩
  | 118 => ⟨S700000, .f32⟩
  | 119 => ⟨S700000, .f32⟩
  | 120 => ⟨S700000x1, .f32⟩
  | 121 => ⟨S_, .i32⟩
  | 122 => ⟨S700000, .i32⟩
  | 123 => ⟨S700000, .i1⟩
  | 124 => ⟨S_, .i32⟩
  | 125 => ⟨S700000, .i32⟩
  | 126 => ⟨S700000, .i32⟩
  | 127 => ⟨S700000, .i32⟩
  | _ => ⟨S100000, .i32⟩

abbrev hbmTy0_1 (i : Nat) : BufTy := match i % 128 with
  | 0 => ⟨S700000x1, .i32⟩
  | 1 => ⟨S700000x128, .f32⟩
  | 2 => ⟨S700000x128, .f32⟩
  | 3 => ⟨S700000x128, .f32⟩
  | 4 => ⟨S_, .f32⟩
  | 5 => ⟨S100000x128, .f32⟩
  | 6 => ⟨S_, .i32⟩
  | 7 => ⟨S700000, .i32⟩
  | 8 => ⟨S700000, .i1⟩
  | 9 => ⟨S_, .i32⟩
  | 10 => ⟨S700000, .i32⟩
  | 11 => ⟨S700000, .i32⟩
  | 12 => ⟨S700000, .i32⟩
  | 13 => ⟨S700000x1, .i32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call0_cst : Ref sig .tc := ⟨.hbm, 83, rfl⟩
abbrev main_call0_v0 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_c_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_17 : Ref sig .tc := ⟨.hbm, 101, rfl⟩
abbrev main_v73 : Ref sig .tc := ⟨.hbm, 102, rfl⟩
abbrev main_v74 : Ref sig .tc := ⟨.hbm, 103, rfl⟩
abbrev main_c_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_19 : Ref sig .tc := ⟨.hbm, 110, rfl⟩
abbrev main_v80 : Ref sig .tc := ⟨.hbm, 111, rfl⟩
abbrev main_v81 : Ref sig .tc := ⟨.hbm, 112, rfl⟩
abbrev main_c_20 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_21 : Ref sig .tc := ⟨.hbm, 121, rfl⟩
abbrev main_v89 : Ref sig .tc := ⟨.hbm, 122, rfl⟩
abbrev main_v90 : Ref sig .tc := ⟨.hbm, 123, rfl⟩
abbrev main_c_22 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_23 : Ref sig .tc := ⟨.hbm, 132, rfl⟩
abbrev main_v98 : Ref sig .tc := ⟨.hbm, 133, rfl⟩
abbrev main_c_24 : Ref sig .tc := ⟨.hbm, 134, rfl⟩
abbrev main_v99 : Ref sig .tc := ⟨.hbm, 135, rfl⟩
abbrev main_v100 : Ref sig .tc := ⟨.hbm, 136, rfl⟩
abbrev main_c_25 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_call1_cst : Ref sig .tc := ⟨.hbm, 146, rfl⟩
abbrev main_call1_v0 : Ref sig .tc := ⟨.hbm, 147, rfl⟩
abbrev main_v109 : Ref sig .tc := ⟨.hbm, 148, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S100000_S100000x1_0 : S100000.BroadcastsInDim S100000x1 (![0] : Fin 1 → Fin S100000x1.rank)
  bcast_S_S700000 : S_.BroadcastsInDim S700000 (![] : Fin 0 → Fin S700000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S50000x128_S100000x1_S100000x128_1_0_n_n_0_1_1128_wf : GatherDims.WF S50000x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Spec.lean ====
/-
  The graph-convolution network both programs compute, as ONE function of the seven argument arrays.

  Nodes carry token ids `x`; `edge_index` lists 600000 directed edges, to which one self-loop per node is appended
  (700000 messages in all).  With `src`, `dst` the two index rows so extended, one layer maps node features `h` to
      relu ( A (h · W) + b ),     (A u)[d] = Σ_{e : dst e = d}  deg[src e]^(-1/2) · deg[dst e]^(-1/2) · u[src e],
  `deg[d]` the number of messages arriving at `d`.  The network is the embedding lookup `emb[x]` followed by two
  such layers.  Every index is wrapped once (a negative index has the axis length added) before it is used, as the
  array library does.

  The pieces below are written operation for operation in the form the host program has them, so that either
  program's host stretch IS the corresponding piece; only the two dense pieces (`dense`: the product with the
  weights; `biasRelu`: adding the bias row and clamping at zero) are computed by the tiled kernels on one side and by
  whole-array host operations on the other, and `dense` / `biasRelu` here are the whole-array forms.
-/
import proofs.«173930_j69329362092401_1_alg».proof.Proof.Gen.KernelIdeal
import proofs.«173930_j69329362092401_1_alg».proof.Proof.Gen.ReferenceIdeal

noncomputable section

namespace Cert.Gcn

open Idealize.ShloMosaic Cert.KernelIdeal Cert.KernelIdeal.Facts₀

variable {F : FTy → Type} [FloatOps F]

/-- A row of 700000 node indices, each wrapped once (`i < 0 ↦ i + 100000`), as a column of index vectors. -/
def wrapNode (v : (⟨S700000, .i32⟩ : BufTy).Contents (Elt F)) : (⟨S700000x1, .i32⟩ : BufTy).Contents (Elt F) :=
  broadcastInDim S700000x1 ![0] bcast_S700000_S700000x1_0
    (select (cmpi .slt v (broadcastInDim S700000 ![] bcast_S_S700000 (constantI S_ 32 0#32)))
      (addi v (broadcastInDim S700000 ![] bcast_S_S700000 (constantI S_ 32 100000#32))) v)

/-- Row `r` of the edge list followed by the self-loops `0, 1, …, 99999`. -/
def withLoops0 (ei : (⟨S2x600000, .i32⟩ : BufTy).Contents (Elt F)) : (⟨S700000, .i32⟩ : BufTy).Contents (Elt F) :=
  concatenate S700000 0 [⟨S600000, shapeCast S600000 (extractStridedSlice S1x600000 ![0, 0] ei slices_S2x600000_S1x600000_0_0) shapeCasts_S1x600000_S600000⟩,
    ⟨S100000, iotaInDim S100000 32 0⟩] concatenates_S600000_S100000_S700000_d0

def withLoops1 (ei : (⟨S2x600000, .i32⟩ : BufTy).Contents (Elt F)) : (⟨S700000, .i32⟩ : BufTy).Contents (Elt F) :=
  concatenate S700000 0 [⟨S600000, shapeCast S600000 (extractStridedSlice S1x600000 ![1, 0] ei slices_S2x600000_S1x600000_1_0) shapeCasts_S1x600000_S600000⟩,
    ⟨S100000, iotaInDim S100000 32 0⟩] concatenates_S600000_S100000_S700000_d0

/-- The embedding lookup `emb[x]`, token ids wrapped once (`i < 0 ↦ i + 50000`). -/
def embed (x : (⟨S100000, .i32⟩ : BufTy).Contents (Elt F)) (emb : (⟨S50000x128, .f32⟩ : BufTy).Contents (Elt F)) :
    (⟨S100000x128, .f32⟩ : BufTy).Contents (Elt F) :=
  Host.gather gather_S50000x128_S100000x1_S100000x128_1_0_n_n_0_1_1128 emb
    (broadcastInDim S100000x1 ![0] bcast_S100000_S100000x1_0
      (select (cmpi .slt x (broadcastInDim S100000 ![] bcast_S_S100000 (constantI S_ 32 0#32)))
        (addi x (broadcastInDim S100000 ![] bcast_S_S100000 (constantI S_ 32 50000#32))) x))

/-- `deg^(-1/2)`: the number of messages arriving at each node (a scatter-add of ones over `dst`), inverse square root. -/
def invSqrtDeg (dst : (⟨S700000, .i32⟩ : BufTy).Contents (Elt F)) : (⟨S100000, .f32⟩ : BufTy).Contents (Elt F) :=
  Host.rsqrt (Host.scatterAdd scatter_S100000_S700000x1_S700000_n_0_0_1
    (broadcastInDim S100000 ![] bcast_S_S100000 (constant S_ .f32 0x00000000#32))
    (wrapNode dst)
    (broadcastInDim S700000 ![] bcast_S_S700000 (constant S_ .f32 0x3F800000#32)))

/-- The weight of each message: `deg[src e]^(-1/2) · deg[dst e]^(-1/2)`. -/
def edgeWeight (src dst : (⟨S700000, .i32⟩ : BufTy).Contents (Elt F)) : (⟨S700000, .f32⟩ : BufTy).Contents (Elt F) :=
  mulf (Host.gather gather_S100000_S700000x1_S700000_n_0_n_n_0_1_1 (invSqrtDeg dst) (wrapNode src))
    (Host.gather gather_S100000_S700000x1_S700000_n_0_n_n_0_1_1 (invSqrtDeg dst) (wrapNode dst))

/-- The normalised aggregation `A u`: every message `weight e · u[src e]` added into row `dst e` of a zero array. -/
def aggregate (u : (⟨S100000x128, .f32⟩ : BufTy).Contents (Elt F)) (src dst : (⟨S700000, .i32⟩ : BufTy).Contents (Elt F)) :
    (⟨S100000x128, .f32⟩ : BufTy).Contents (Elt F) :=
  Host.scatterAdd scatter_S100000x128_S700000x1_S700000x128_1_0_0_1
    (broadcastInDim S100000x128 ![] bcast_S_S100000x128 (constant S_ .f32 0x00000000#32))
    (wrapNode dst)
    (mulf (broadcastInDim S700000x128 ![0, 1] bcast_S700000x1_S700000x128_0_1
        (broadcastInDim S700000x1 ![0] bcast_S700000_S700000x1_0 (edgeWeight src dst)))
      (Host.gather gather_S100000x128_S700000x1_S700000x128_1_0_n_n_0_1_1128 u (wrapNode src)))

/-- The dense piece: all node features times a weight matrix, `(h · W)[n, j] = Σ_k h[n, k] · W[k, j]`. -/
def dense (h : (⟨S100000x128, .f32⟩ : BufTy).Contents (Elt F)) (w : (⟨S128x128, .f32⟩ : BufTy).Contents (Elt F)) :
    (⟨S100000x128, .f32⟩ : BufTy).Contents (Elt F) :=
  Host.dotGeneral Cert.ReferenceIdeal.dot_S100000x128_S128x128_S100000x128_1_0_0_1_n_n none h w

/-- The closing piece of a layer: the bias row added to every node's features, then clamped below at zero. -/
def biasRelu (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] Cert.ReferenceIdeal.Facts₀.bcast_S1x128_S100000x128_0_1
      (broadcastInDim S1x128 ![1] Cert.ReferenceIdeal.Facts₀.bcast_S128_S1x128_1 b)))
    (broadcastInDim S100000x128 ![] bcast_S_S100000x128 (constant S_ .f32 0x00000000#32))

/-- One layer: `relu (A (h · W) + b)`. -/
def layer (h : (⟨S100000x128, .f32⟩ : BufTy).Contents (Elt F)) (w : (⟨S128x128, .f32⟩ : BufTy).Contents (Elt F))
    (b : (⟨S128, .f32⟩ : BufTy).Contents (Elt F)) (src dst : (⟨S700000, .i32⟩ : BufTy).Contents (Elt F)) :
    (⟨S100000x128, .f32⟩ : BufTy).Contents (Elt F) :=
  biasRelu (aggregate (dense h w) src dst) b

/-- The whole network. -/
def net (x : (⟨S100000, .i32⟩ : BufTy).Contents (Elt F)) (ei : (⟨S2x600000, .i32⟩ : BufTy).Contents (Elt F))
    (emb : (⟨S50000x128, .f32⟩ : BufTy).Contents (Elt F)) (w1 : (⟨S128x128, .f32⟩ : BufTy).Contents (Elt F))
    (b1 : (⟨S128, .f32⟩ : BufTy).Contents (Elt F)) (w2 : (⟨S128x128, .f32⟩ : BufTy).Contents (Elt F))
    (b2 : (⟨S128, .f32⟩ : BufTy).Contents (Elt F)) : (⟨S100000x128, .f32⟩ : BufTy).Contents (Elt F) :=
  layer (layer (embed x emb) w1 b1 (withLoops0 ei) (withLoops1 ei)) w2 b2 (withLoops0 ei) (withLoops1 ei)

end Cert.Gcn

end
-- ==== Proof.HostStretches.lean ====
/-
  The kernel program's three host stretches, each as a function of whatever the buffers hold when it starts.

  Before the first product kernel: the two index rows with the self-loops appended and the embedding lookup.  Between a
  product kernel and the bias kernel that follows it: the normalised aggregation of the product's result over the
  messages.  Each stretch's result buffer holds the corresponding piece of the specification applied to the contents of
  the buffers it reads, and every buffer a stretch does not write holds what it held.
-/
import proofs.«173930_j69329362092401_1_alg».proof.Proof.Gen.KernelIdeal.Launch
import proofs.«173930_j69329362092401_1_alg».proof.Proof.Spec
import Idealize.ShloMosaic.Lib.StableHlo.Run

set_option maxRecDepth 8192

noncomputable section

namespace Cert.Gcn.Stretch

open Idealize.ShloMosaic Idealize.ShloMosaic.StableHlo Idealize.ShloMosaic.TcCoe Idealize.SL.Sem
open Cert.KernelIdeal Cert.KernelIdeal.Gen Cert.KernelIdeal.Facts₀ Cert.Gcn

variable {F : FTy → Type} [FloatOps F] (W : Valuation τ sig (Elt F))

/-! ## Before the first kernel -/

theorem hostOps0_src : after (hostOps0 (F := F)) W (Proc.devRef .tc main_v3) = withLoops0 (W (Proc.devRef .tc main_arg1)) := by
  after_results_simp
  rfl

theorem hostOps0_dst : after (hostOps0 (F := F)) W (Proc.devRef .tc main_v6) = withLoops1 (W (Proc.devRef .tc main_arg1)) := by
  after_results_simp
  rfl

theorem hostOps0_embed : after (hostOps0 (F := F)) W (Proc.devRef .tc main_v13)
    = embed (W (Proc.devRef .tc main_arg0)) (W (Proc.devRef .tc main_arg2)) := by
  after_results_simp
  rfl

theorem hostOps0_keeps_arg3 : after (hostOps0 (F := F)) W (Proc.devRef .tc main_arg3) = W (Proc.devRef .tc main_arg3) := by
  after_results_simp

theorem hostOps0_keeps_arg4 : after (hostOps0 (F := F)) W (Proc.devRef .tc main_arg4) = W (Proc.devRef .tc main_arg4) := by
  after_results_simp

theorem hostOps0_keeps_arg5 : after (hostOps0 (F := F)) W (Proc.devRef .tc main_arg5) = W (Proc.devRef .tc main_arg5) := by
  after_results_simp

theorem hostOps0_keeps_arg6 : after (hostOps0 (F := F)) W (Proc.devRef .tc main_arg6) = W (Proc.devRef .tc main_arg6) := by
  after_results_simp

/-! ## After the first product kernel -/

theorem hostOps1_aggregate : after (hostOps1 (F := F)) W (Proc.devRef .tc main_v57)
    = aggregate (W (Proc.devRef .tc main_v14)) (W (Proc.devRef .tc main_v3)) (W (Proc.devRef .tc main_v6)) := by
  after_results_simp
  rfl

theorem hostOps1_keeps_src : after (hostOps1 (F := F)) W (Proc.devRef .tc main_v3) = W (Proc.devRef .tc main_v3) := by
  after_results_simp

theorem hostOps1_keeps_dst : after (hostOps1 (F := F)) W (Proc.devRef .tc main_v6) = W (Proc.devRef .tc main_v6) := by
  after_results_simp

theorem hostOps1_keeps_arg4 : after (hostOps1 (F := F)) W (Proc.devRef .tc main_arg4) = W (Proc.devRef .tc main_arg4) := by
  after_results_simp

theorem hostOps1_keeps_arg5 : after (hostOps1 (F := F)) W (Proc.devRef .tc main_arg5) = W (Proc.devRef .tc main_arg5) := by
  after_results_simp

theorem hostOps1_keeps_arg6 : after (hostOps1 (F := F)) W (Proc.devRef .tc main_arg6) = W (Proc.devRef .tc main_arg6) := by
  after_results_simp

/-! ## After the second product kernel -/

theorem hostOps3_aggregate : after (hostOps3 (F := F)) W (Proc.devRef .tc main_v102)
    = aggregate (W (Proc.devRef .tc main_v59)) (W (Proc.devRef .tc main_v3)) (W (Proc.devRef .tc main_v6)) := by
  after_results_simp
  rfl

theorem hostOps3_keeps_arg6 : after (hostOps3 (F := F)) W (Proc.devRef .tc main_arg6) = W (Proc.devRef .tc main_arg6) := by
  after_results_simp

end Cert.Gcn.Stretch

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.Blocks.lean ====
/-
  One tile of each dense piece, read at an entry.

  The tiled kernels cut the 100000 node rows into 20 tiles of 5000.  A product tile holds 5000 rows of node features and
  the whole 128 × 128 weight matrix and computes their product into a zero accumulator (the narrowing of both operands
  to a shorter float format is the identity on extended reals); a bias tile holds 5000 rows and the whole bias row, adds
  the row to each and clamps below at zero.  So entry (p, q) of a product tile is  Σ_k tile[p, k] · W[k, q]  and entry
  (p, q) of a bias tile is  max (tile[p, q] + b[q], 0) — the same expressions as entry (r, q) of the whole-array
  pieces `dense` and `biasRelu` whenever row p of the tile is row r of the array.  That last statement, for a tile
  and a whole array related row by row, is what the tiling argument uses.
-/
import proofs.«173930_j69329362092401_1_alg».proof.Proof.Spec
import proofs.«173930_j69329362092401_1_alg».proof.Proof.LibPlainDot
import proofs.«173930_j69329362092401_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn

open Idealize.ShloMosaic Idealize.ShloMosaic.ValueIdx Cert.KernelIdeal Cert.KernelIdeal.Gen Cert.KernelIdeal.Facts₀

/-! ## The product -/

/-- Entry (r, q) of the whole product is the textbook sum. -/
theorem dense_at (h : Vec Ideal S100000x128 .f32) (w : Vec Ideal S128x128 .f32) (r : Fin 100000) (q : Fin 128) :
    dense (F := Ideal) h w (ix2 r q) = ∑ k : Fin 128, h (ix2 r k) * w (ix2 k q) :=
  Cert.LibPlainDot.hostDot_apply Cert.ReferenceIdeal.dot_S100000x128_S128x128_S100000x128_1_0_0_1_n_n rfl rfl rfl rfl rfl rfl none h w r q

/-- Entry (p, q) of a product tile is the same sum over the tile's row p. -/
theorem tileProduct_at (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  rw [shapeCast_self]
  refine (Ideal.matmul_constant_zero_apply dot_S5000x128_S128x128_S5000x128_1_0_0_1_n_n none _ _ (ix2 p q)).trans ?_
  exact Cert.LibPlainDot.plain_sum dot_S5000x128_S128x128_S5000x128_1_0_0_1_n_n rfl rfl rfl rfl rfl rfl
    (fun i => x0 i) (fun i => x1 i) p q

/-- A product tile whose rows are rows of `h` and whose weight block is all of `w` holds, at each entry, the entry of
    `dense h w` in the corresponding row and the same column. -/
theorem tileProduct_eq_dense (h : Vec Ideal S100000x128 .f32) (w : Vec Ideal S128x128 .f32)
    (x0 : Vec Ideal S5000x128 .f32) (x1 : Vec Ideal S128x128 .f32) (i : S100000x128.Idx) (j : S5000x128.Idx)
    (hrow : ∀ k : Fin 128, x0 (ix2 (j 0) k) = h (ix2 (i 0) k)) (hw : x1 = w) (hcol : (i 1).val = (j 1).val) :
    k0_pay1 (F := Ideal) x0 x1 j = dense (F := Ideal) h w i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hc : s = q := Fin.ext hcol
  subst hc
  rw [tileProduct_at, dense_at, hw]
  exact Finset.sum_congr rfl fun k _ => by rw [show x0 (ix2 p k) = h (ix2 r k) from hrow k]

/-- The second product kernel's tile is the same expression. -/
theorem tileProduct2_eq_dense (h : Vec Ideal S100000x128 .f32) (w : Vec Ideal S128x128 .f32)
    (x0 : Vec Ideal S5000x128 .f32) (x1 : Vec Ideal S128x128 .f32) (i : S100000x128.Idx) (j : S5000x128.Idx)
    (hrow : ∀ k : Fin 128, x0 (ix2 (j 0) k) = h (ix2 (i 0) k)) (hw : x1 = w) (hcol : (i 1).val = (j 1).val) :
    k2_pay1 (F := Ideal) x0 x1 j = dense (F := Ideal) h w i :=
  tileProduct_eq_dense h w x0 x1 i j hrow hw hcol

/-! ## Bias and clamp -/

/-- The bias row laid over all 100000 node rows, read at (r, q): entry q of the row. -/
theorem biasRows_at (b : Vec Ideal S128 .f32) (r : Fin 100000) (q : Fin 128) :
    broadcastInDim S100000x128 ![0, 1] Cert.ReferenceIdeal.Facts₀.bcast_S1x128_S100000x128_0_1
      (broadcastInDim S1x128 ![1] Cert.ReferenceIdeal.Facts₀.bcast_S128_S1x128_1 b) (ix2 r q) = b (ix1 q) := by
  simp only [broadcastInDim]
  congr 1
  funext e
  have he : e = 0 := Subsingleton.elim _ _
  subst he
  rfl

/-- Entry (r, q) of the whole bias-and-clamp piece. -/
theorem biasRelu_at (a : Vec Ideal S100000x128 .f32) (b : Vec Ideal S128 .f32) (r : Fin 100000) (q : Fin 128) :
    biasRelu (F := Ideal) a b (ix2 r q) = max (a (ix2 r q) + b (ix1 q)) (Ideal.ofBits .f32 0x00000000#32) := by
  unfold biasRelu
  rw [maximumf_apply, addf_apply, biasRows_at]
  rfl

/-- Entry (p, q) of a bias tile. -/
theorem tileBias_at (x0 : Vec Ideal S5000x128 .f32) (x1 : Vec Ideal S128 .f32) (p : Fin 5000) (q : Fin 128) :
    k1_pay1 (F := Ideal) x0 x1 (ix2 p q) = max (x0 (ix2 p q) + x1 (ix1 q)) (Ideal.ofBits .f32 0x00000000#32) := by
  unfold k1_pay1
  rw [shapeCast_self]
  rw [maximumf_apply, addf_apply, broadcastTo_1b_ab_apply, shapeCast_a_1a_apply]
  rfl

/-- A bias tile whose rows are rows of `a` and whose bias block is all of `b` holds, at each entry, the entry of
    `biasRelu a b` in the corresponding row and the same column. -/
theorem tileBias_eq_biasRelu (a : Vec Ideal S100000x128 .f32) (b : Vec Ideal S128 .f32)
    (x0 : Vec Ideal S5000x128 .f32) (x1 : Vec Ideal S128 .f32) (i : S100000x128.Idx) (j : S5000x128.Idx)
    (hent : x0 j = a i) (hb : x1 = b) (hcol : (i 1).val = (j 1).val) :
    k1_pay1 (F := Ideal) x0 x1 j = biasRelu (F := Ideal) a b i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hc : s = q := Fin.ext hcol
  subst hc
  rw [tileBias_at, biasRelu_at, hb, hent]

/-- The second bias kernel's tile is the same expression. -/
theorem tileBias3_eq_biasRelu (a : Vec Ideal S100000x128 .f32) (b : Vec Ideal S128 .f32)
    (x0 : Vec Ideal S5000x128 .f32) (x1 : Vec Ideal S128 .f32) (i : S100000x128.Idx) (j : S5000x128.Idx)
    (hent : x0 j = a i) (hb : x1 = b) (hcol : (i 1).val = (j 1).val) :
    k3_pay1 (F := Ideal) x0 x1 j = biasRelu (F := Ideal) a b i :=
  tileBias_eq_biasRelu a b x0 x1 i j hent hb hcol

end Cert.Gcn

end
-- ==== Proof.Region0.lean ====
/-
  The first product kernel's result array, whole.

  The kernel runs 20 points; point t holds rows 5000 t … 5000 t + 4999 of the node features and all of the weight
  matrix, and writes its product tile back over the same rows of the result.  An entry of what point t writes back is
  therefore the entry of the whole product `dense` in that row and column (a row of the tile is a row of the array;
  the weight block is the matrix itself), the 20 row ranges cover every row, and so the result array ends holding
  `dense` of the two arrays the kernel was given — whatever those hold when the kernel starts.
-/
import proofs.«173930_j69329362092401_1_alg».proof.Proof.Gen.KernelIdeal.Frame
import proofs.«173930_j69329362092401_1_alg».proof.Proof.Blocks
import Idealize.ShloMosaic.Lib.Pipeline.Value

set_option maxRecDepth 16384

noncomputable section

namespace Cert.Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.Gcn

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the feature window moves down the rows with the result window and sits in block
    column 0; the weight window stays at block (0, 0). -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the 20 row blocks is some point's. -/
theorem every_row_block : ∀ q0 : Fin 20, ∃ t : Fin cfg0.N, win0_2.index t = ![q0.val, 0] :=
  (by decide +kernel : ∀ q0 : Fin 20, ∃ t : Fin grid0.N, win0_2.index t = ![q0.val, 0])

/-- What point t writes back is block t of the whole product. -/
theorem written_back (c : Dev nD) (t : Fin cfg0.N) :
    (dat0 V c).flushed 2 t = ((cfg0.win 2).blk t).view.read (Elt Ideal) (dense (V c main_v13) (V c main_arg3)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4⟩ := index_maps t
  funext j
  show k0_pay1 (iblk0 V c 0 t) (iblk0 V c 1 t) j = dense (V c main_v13) (V c main_arg3) (((cfg0.win 2).blk t).view.emb j)
  refine tileProduct_eq_dense (V c main_v13) (V c main_arg3) (iblk0 V c 0 t) (iblk0 V c 1 t) (((cfg0.win 2).blk t).view.emb j) j ?_ ?_ ?_
  · intro k
    show V c main_v13 (((cfg0.win 0).blk t).view.emb (ix2 (j 0) k)) = V c main_v13 (ix2 ((((cfg0.win 2).blk t).view.emb j) 0) k)
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · funext y
    show V c main_arg3 (((cfg0.win 1).blk t).view.emb y) = V c main_arg3 y
    congr 1
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (1 : Fin 2) * 128 + 1 * (j 1).val = (j 1).val; omega

/-- An index of the result array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v14).slice (win0_2.rect t)).set ↔ _
  rw [View.set_slice_whole, Rect.mem_set_unit]
  exact Iff.rfl

/-- Row r lies in the block of the point whose row block is r / 5000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := every_row_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the kernel: the whole product of the arrays it was given. -/
theorem result (c : Dev nD) : (dat0 V c).arrAt 2 cfg0.N = dense (V c main_v13) (V c main_arg3) :=
  (dat0 V c).arrAt_eq_of_cover 2 _ (fun t _ => written_back V c t) covered

end Cert.Gcn.Region0

end
-- ==== Proof.Region1.lean ====
/-
  The first bias kernel's result array, whole.

  The kernel runs 20 points; point t holds rows 5000 t … 5000 t + 4999 of the aggregated features and the whole bias
  row, and writes back, over the same rows of the result, each entry plus its column's bias clamped below at zero.  An
  entry of what point t writes back is the entry of the whole-array piece `biasRelu` at the same place, the 20 row
  ranges cover every row, and so the result array ends holding `biasRelu` of the two arrays the kernel was given.
-/
import proofs.«173930_j69329362092401_1_alg».proof.Proof.Gen.KernelIdeal.Frame
import proofs.«173930_j69329362092401_1_alg».proof.Proof.Blocks
import Idealize.ShloMosaic.Lib.Pipeline.Value

set_option maxRecDepth 16384

noncomputable section

namespace Cert.Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.Gcn

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The index maps over the grid: the input window moves down the rows with the result window, both in block column 0;
    the bias window stays at block 0. -/
theorem index_maps : ∀ t : Fin cfg1.N,
    win1_0.index t (0 : Fin 2) = win1_2.index t (0 : Fin 2) ∧ win1_0.index t (1 : Fin 2) = 0
    ∧ win1_1.index t (0 : Fin 1) = 0
    ∧ win1_2.index t (1 : Fin 2) = 0 :=
  (by decide +kernel : ∀ t : Fin grid1.N, _)

/-- Every one of the 20 row blocks is some point's. -/
theorem every_row_block : ∀ q0 : Fin 20, ∃ t : Fin cfg1.N, win1_2.index t = ![q0.val, 0] :=
  (by decide +kernel : ∀ q0 : Fin 20, ∃ t : Fin grid1.N, win1_2.index t = ![q0.val, 0])

/-- What point t writes back is block t of the whole bias-and-clamp piece. -/
theorem written_back (c : Dev nD) (t : Fin cfg1.N) :
    (dat1 V c).flushed 2 t = ((cfg1.win 2).blk t).view.read (Elt Ideal) (biasRelu (V c main_v57) (V c main_arg4)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128) origin1]
  obtain ⟨e0, e1, e2, e3⟩ := index_maps t
  funext j
  show k1_pay1 (iblk1 V c 0 t) (iblk1 V c 1 t) j = biasRelu (V c main_v57) (V c main_arg4) (((cfg1.win 2).blk t).view.emb j)
  refine tileBias_eq_biasRelu (V c main_v57) (V c main_arg4) (iblk1 V c 0 t) (iblk1 V c 1 t) (((cfg1.win 2).blk t).view.emb j) j ?_ ?_ ?_
  · show V c main_v57 (((cfg1.win 0).blk t).view.emb j) = V c main_v57 (((cfg1.win 2).blk t).view.emb j)
    refine congrArg (V c main_v57) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · funext y
    show V c main_arg4 (((cfg1.win 1).blk t).view.emb y) = V c main_arg4 y
    congr 1
    funext a; apply Fin.ext
    match a with
    | ⟨0, _⟩ => show win1_1.index t (0 : Fin 1) * 128 + 1 * (y 0).val = (y 0).val; omega
  · show win1_2.index t (1 : Fin 2) * 128 + 1 * (j 1).val = (j 1).val; omega

/-- An index of the result array is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v58).slice (win1_2.rect t)).set ↔ _
  rw [View.set_slice_whole, Rect.mem_set_unit]
  exact Iff.rfl

/-- Row r lies in the block of the point whose row block is r / 5000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := every_row_block ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the kernel: bias added and clamped, over the arrays it was given. -/
theorem result (c : Dev nD) : (dat1 V c).arrAt 2 cfg1.N = biasRelu (V c main_v57) (V c main_arg4) :=
  (dat1 V c).arrAt_eq_of_cover 2 _ (fun t _ => written_back V c t) covered

end Cert.Gcn.Region1

end
-- ==== Proof.Region2.lean ====
/-
  The second product kernel's result array, whole.

  The kernel runs 20 points; point t holds rows 5000 t … 5000 t + 4999 of the node features and all of the weight
  matrix, and writes its product tile back over the same rows of the result.  An entry of what point t writes back is
  therefore the entry of the whole product `dense` in that row and column (a row of the tile is a row of the array;
  the weight block is the matrix itself), the 20 row ranges cover every row, and so the result array ends holding
  `dense` of the two arrays the kernel was given — whatever those hold when the kernel starts.
-/
import proofs.«173930_j69329362092401_1_alg».proof.Proof.Gen.KernelIdeal.Frame
import proofs.«173930_j69329362092401_1_alg».proof.Proof.Blocks
import Idealize.ShloMosaic.Lib.Pipeline.Value

set_option maxRecDepth 16384

noncomputable section

namespace Cert.Gcn.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.Gcn

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the feature window moves down the rows with the result window and sits in block
    column 0; the weight window stays at block (0, 0). -/
theorem index_maps : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every one of the 20 row blocks is some point's. -/
theorem every_row_block : ∀ q0 : Fin 20, ∃ t : Fin cfg2.N, win2_2.index t = ![q0.val, 0] :=
  (by decide +kernel : ∀ q0 : Fin 20, ∃ t : Fin grid2.N, win2_2.index t = ![q0.val, 0])

/-- What point t writes back is block t of the whole product. -/
theorem written_back (c : Dev nD) (t : Fin cfg2.N) :
    (dat2 V c).flushed 2 t = ((cfg2.win 2).blk t).view.read (Elt Ideal) (dense (V c main_v58) (V c main_arg5)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  obtain ⟨e0, e1, e2, e3, e4⟩ := index_maps t
  funext j
  show k2_pay1 (iblk2 V c 0 t) (iblk2 V c 1 t) j = dense (V c main_v58) (V c main_arg5) (((cfg2.win 2).blk t).view.emb j)
  refine tileProduct2_eq_dense (V c main_v58) (V c main_arg5) (iblk2 V c 0 t) (iblk2 V c 1 t) (((cfg2.win 2).blk t).view.emb j) j ?_ ?_ ?_
  · intro k
    show V c main_v58 (((cfg2.win 0).blk t).view.emb (ix2 (j 0) k)) = V c main_v58 (ix2 ((((cfg2.win 2).blk t).view.emb j) 0) k)
    congr 1
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · funext y
    show V c main_arg5 (((cfg2.win 1).blk t).view.emb y) = V c main_arg5 y
    congr 1
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (1 : Fin 2) * 128 + 1 * (j 1).val = (j 1).val; omega

/-- An index of the result array is in point t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v59).slice (win2_2.rect t)).set ↔ _
  rw [View.set_slice_whole, Rect.mem_set_unit]
  exact Iff.rfl

/-- Row r lies in the block of the point whose row block is r / 5000. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := every_row_block ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the kernel: the whole product of the arrays it was given. -/
theorem result (c : Dev nD) : (dat2 V c).arrAt 2 cfg2.N = dense (V c main_v58) (V c main_arg5) :=
  (dat2 V c).arrAt_eq_of_cover 2 _ (fun t _ => written_back V c t) covered

end Cert.Gcn.Region2

end
-- ==== Proof.Region3.lean ====
/-
  The second bias kernel's result array, whole.

  The kernel runs 20 points; point t holds rows 5000 t … 5000 t + 4999 of the aggregated features and the whole bias
  row, and writes back, over the same rows of the result, each entry plus its column's bias clamped below at zero.  An
  entry of what point t writes back is the entry of the whole-array piece `biasRelu` at the same place, the 20 row
  ranges cover every row, and so the result array ends holding `biasRelu` of the two arrays the kernel was given.
-/
import proofs.«173930_j69329362092401_1_alg».proof.Proof.Gen.KernelIdeal.Frame
import proofs.«173930_j69329362092401_1_alg».proof.Proof.Blocks
import Idealize.ShloMosaic.Lib.Pipeline.Value

set_option maxRecDepth 16384

noncomputable section

namespace Cert.Gcn.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.Gcn

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The index maps over the grid: the input window moves down the rows with the result window, both in block column 0;
    the bias window stays at block 0. -/
theorem index_maps : ∀ t : Fin cfg3.N,
    win3_0.index t (0 : Fin 2) = win3_2.index t (0 : Fin 2) ∧ win3_0.index t (1 : Fin 2) = 0
    ∧ win3_1.index t (0 : Fin 1) = 0
    ∧ win3_2.index t (1 : Fin 2) = 0 :=
  (by decide +kernel : ∀ t : Fin grid3.N, _)

/-- Every one of the 20 row blocks is some point's. -/
theorem every_row_block : ∀ q0 : Fin 20, ∃ t : Fin cfg3.N, win3_2.index t = ![q0.val, 0] :=
  (by decide +kernel : ∀ q0 : Fin 20, ∃ t : Fin grid3.N, win3_2.index t = ![q0.val, 0])

/-- What point t writes back is block t of the whole bias-and-clamp piece. -/
theorem written_back (c : Dev nD) (t : Fin cfg3.N) :
    (dat3 V c).flushed 2 t = ((cfg3.win 2).blk t).view.read (Elt Ideal) (biasRelu (V c main_v102) (V c main_arg6)) := by
  show (cfg3.win 2).cut (grid3.coords t) ((dat3 V c).after 2 t) = _
  rw [after3_2]
  unfold out3_2
  rw [View.canon_unit_zero origin2]
  simp only [View.ld_unit_zero (S := S5000x128) origin2, View.ld_unit_zero (S := S128) origin1]
  obtain ⟨e0, e1, e2, e3⟩ := index_maps t
  funext j
  show k3_pay1 (iblk3 V c 0 t) (iblk3 V c 1 t) j = biasRelu (V c main_v102) (V c main_arg6) (((cfg3.win 2).blk t).view.emb j)
  refine tileBias3_eq_biasRelu (V c main_v102) (V c main_arg6) (iblk3 V c 0 t) (iblk3 V c 1 t) (((cfg3.win 2).blk t).view.emb j) j ?_ ?_ ?_
  · show V c main_v102 (((cfg3.win 0).blk t).view.emb j) = V c main_v102 (((cfg3.win 2).blk t).view.emb j)
    refine congrArg (V c main_v102) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · funext y
    show V c main_arg6 (((cfg3.win 1).blk t).view.emb y) = V c main_arg6 y
    congr 1
    funext a; apply Fin.ext
    match a with
    | ⟨0, _⟩ => show win3_1.index t (0 : Fin 1) * 128 + 1 * (y 0).val = (y 0).val; omega
  · show win3_2.index t (1 : Fin 2) * 128 + 1 * (j 1).val = (j 1).val; omega

/-- An index of the result array is in point t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v103).slice (win3_2.rect t)).set ↔ _
  rw [View.set_slice_whole, Rect.mem_set_unit]
  exact Iff.rfl

/-- Row r lies in the block of the point whose row block is r / 5000. -/
theorem covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := every_row_block ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the kernel: bias added and clamped, over the arrays it was given. -/
theorem result (c : Dev nD) : (dat3 V c).arrAt 2 cfg3.N = biasRelu (V c main_v102) (V c main_arg6) :=
  (dat3 V c).arrAt_eq_of_cover 2 _ (fun t _ => written_back V c t) covered

end Cert.Gcn.Region3

end
-- ==== Proof.KernelValue.lean ====
/-
  The kernel program's result array, read through the run's segment boundaries.

  @main is seven segments: a host stretch, the first product kernel, a host stretch, the first bias kernel, the second
  product kernel, a host stretch, the second bias kernel.  At each boundary the buffers that matter hold:
    1  the embedding lookup `h0`, the two index rows `src`, `dst` with the self-loops, the arguments;
    2  the product `h0 · W1`;             3  its normalised aggregation over the messages;
    4  that plus `b1`, clamped: `h1`;     5  the product `h1 · W2`;
    6  its normalised aggregation;         7  that plus `b2`, clamped: the network's output.
  Each step is one host-stretch lemma or one kernel's whole-array result applied to the previous boundary's contents; the
  index rows and the arguments are carried unchanged past every segment that does not write them.
-/
import proofs.«173930_j69329362092401_1_alg».proof.Proof.Gen.KernelIdeal.Frame
import proofs.«173930_j69329362092401_1_alg».proof.Proof.HostStretches
import proofs.«173930_j69329362092401_1_alg».proof.Proof.Region0
import proofs.«173930_j69329362092401_1_alg».proof.Proof.Region1
import proofs.«173930_j69329362092401_1_alg».proof.Proof.Region2
import proofs.«173930_j69329362092401_1_alg».proof.Proof.Region3

set_option maxRecDepth 16384

noncomputable section

namespace Cert.Gcn.KernelValue

open Idealize.ShloMosaic Idealize.ShloMosaic.TcCoe Idealize.SL.Sem
open Cert.KernelIdeal Cert.KernelIdeal.Gen Cert.KernelIdeal.Facts₀ Cert.Gcn

variable (m : (ℓ : Loc nD τ sig) → Buf (Elt Ideal) ℓ) (ρ : Dev nD → PrngReg)

/-! ## The values along the way, as functions of the launch memory -/

abbrev src (c : Dev nD) : (⟨S700000, .i32⟩ : BufTy).Contents (Elt Ideal) := withLoops0 (m ((c : Thread nD τ).loc main_arg1))
abbrev dst (c : Dev nD) : (⟨S700000, .i32⟩ : BufTy).Contents (Elt Ideal) := withLoops1 (m ((c : Thread nD τ).loc main_arg1))
abbrev h0 (c : Dev nD) : (⟨S100000x128, .f32⟩ : BufTy).Contents (Elt Ideal) :=
  embed (m ((c : Thread nD τ).loc main_arg0)) (m ((c : Thread nD τ).loc main_arg2))
abbrev p1 (c : Dev nD) : (⟨S100000x128, .f32⟩ : BufTy).Contents (Elt Ideal) := dense (h0 m c) (m ((c : Thread nD τ).loc main_arg3))
abbrev a1 (c : Dev nD) : (⟨S100000x128, .f32⟩ : BufTy).Contents (Elt Ideal) := aggregate (p1 m c) (src m c) (dst m c)
abbrev h1 (c : Dev nD) : (⟨S100000x128, .f32⟩ : BufTy).Contents (Elt Ideal) := biasRelu (a1 m c) (m ((c : Thread nD τ).loc main_arg4))
abbrev p2 (c : Dev nD) : (⟨S100000x128, .f32⟩ : BufTy).Contents (Elt Ideal) := dense (h1 m c) (m ((c : Thread nD τ).loc main_arg5))
abbrev a2 (c : Dev nD) : (⟨S100000x128, .f32⟩ : BufTy).Contents (Elt Ideal) := aggregate (p2 m c) (src m c) (dst m c)
abbrev out (c : Dev nD) : (⟨S100000x128, .f32⟩ : BufTy).Contents (Elt Ideal) := biasRelu (a2 m c) (m ((c : Thread nD τ).loc main_arg6))

/-- The last value is the network of the specification. -/
theorem out_eq_net (c : Dev nD) : out m c = net (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := rfl

/-! ## Boundary 1: after the first host stretch -/

theorem at1_h0 (c : Dev nD) : W1 m ρ c (Proc.devRef .tc main_v13) = h0 m c := Stretch.hostOps0_embed (W0 m ρ c)
theorem at1_src (c : Dev nD) : W1 m ρ c (Proc.devRef .tc main_v3) = src m c := Stretch.hostOps0_src (W0 m ρ c)
theorem at1_dst (c : Dev nD) : W1 m ρ c (Proc.devRef .tc main_v6) = dst m c := Stretch.hostOps0_dst (W0 m ρ c)
theorem at1_arg3 (c : Dev nD) : W1 m ρ c (Proc.devRef .tc main_arg3) = m ((c : Thread nD τ).loc main_arg3) := Stretch.hostOps0_keeps_arg3 (W0 m ρ c)
theorem at1_arg4 (c : Dev nD) : W1 m ρ c (Proc.devRef .tc main_arg4) = m ((c : Thread nD τ).loc main_arg4) := Stretch.hostOps0_keeps_arg4 (W0 m ρ c)
theorem at1_arg5 (c : Dev nD) : W1 m ρ c (Proc.devRef .tc main_arg5) = m ((c : Thread nD τ).loc main_arg5) := Stretch.hostOps0_keeps_arg5 (W0 m ρ c)
theorem at1_arg6 (c : Dev nD) : W1 m ρ c (Proc.devRef .tc main_arg6) = m ((c : Thread nD τ).loc main_arg6) := Stretch.hostOps0_keeps_arg6 (W0 m ρ c)

/-! ## Boundary 2: after the first product kernel -/

theorem at2_p1 (c : Dev nD) : W2 m ρ c (Proc.devRef .tc main_v14) = p1 m c := by
  refine (W2_arr m ρ c 2).trans ?_
  rw [Region0.result (V1 m ρ) c]
  show dense (W1 m ρ c (Proc.devRef .tc main_v13)) (W1 m ρ c (Proc.devRef .tc main_arg3)) = _
  rw [at1_h0, at1_arg3]
theorem at2_src (c : Dev nD) : W2 m ρ c (Proc.devRef .tc main_v3) = src m c := (W2_of_ne m ρ c main_v3 (by decide)).trans (at1_src m ρ c)
theorem at2_dst (c : Dev nD) : W2 m ρ c (Proc.devRef .tc main_v6) = dst m c := (W2_of_ne m ρ c main_v6 (by decide)).trans (at1_dst m ρ c)
theorem at2_arg4 (c : Dev nD) : W2 m ρ c (Proc.devRef .tc main_arg4) = m ((c : Thread nD τ).loc main_arg4) := (W2_of_ne m ρ c main_arg4 (by decide)).trans (at1_arg4 m ρ c)
theorem at2_arg5 (c : Dev nD) : W2 m ρ c (Proc.devRef .tc main_arg5) = m ((c : Thread nD τ).loc main_arg5) := (W2_of_ne m ρ c main_arg5 (by decide)).trans (at1_arg5 m ρ c)
theorem at2_arg6 (c : Dev nD) : W2 m ρ c (Proc.devRef .tc main_arg6) = m ((c : Thread nD τ).loc main_arg6) := (W2_of_ne m ρ c main_arg6 (by decide)).trans (at1_arg6 m ρ c)

/-! ## Boundary 3: after the second host stretch -/

theorem at3_a1 (c : Dev nD) : W3 m ρ c (Proc.devRef .tc main_v57) = a1 m c := by
  refine (Stretch.hostOps1_aggregate (W2 m ρ c)).trans ?_
  rw [at2_p1, at2_src, at2_dst]
theorem at3_src (c : Dev nD) : W3 m ρ c (Proc.devRef .tc main_v3) = src m c := (Stretch.hostOps1_keeps_src (W2 m ρ c)).trans (at2_src m ρ c)
theorem at3_dst (c : Dev nD) : W3 m ρ c (Proc.devRef .tc main_v6) = dst m c := (Stretch.hostOps1_keeps_dst (W2 m ρ c)).trans (at2_dst m ρ c)
theorem at3_arg4 (c : Dev nD) : W3 m ρ c (Proc.devRef .tc main_arg4) = m ((c : Thread nD τ).loc main_arg4) := (Stretch.hostOps1_keeps_arg4 (W2 m ρ c)).trans (at2_arg4 m ρ c)
theorem at3_arg5 (c : Dev nD) : W3 m ρ c (Proc.devRef .tc main_arg5) = m ((c : Thread nD τ).loc main_arg5) := (Stretch.hostOps1_keeps_arg5 (W2 m ρ c)).trans (at2_arg5 m ρ c)
theorem at3_arg6 (c : Dev nD) : W3 m ρ c (Proc.devRef .tc main_arg6) = m ((c : Thread nD τ).loc main_arg6) := (Stretch.hostOps1_keeps_arg6 (W2 m ρ c)).trans (at2_arg6 m ρ c)

/-! ## Boundary 4: after the first bias kernel -/

theorem at4_h1 (c : Dev nD) : W4 m ρ c (Proc.devRef .tc main_v58) = h1 m c := by
  refine (W4_arr m ρ c 2).trans ?_
  rw [Region1.result (V3 m ρ) c]
  show biasRelu (W3 m ρ c (Proc.devRef .tc main_v57)) (W3 m ρ c (Proc.devRef .tc main_arg4)) = _
  rw [at3_a1, at3_arg4]
theorem at4_src (c : Dev nD) : W4 m ρ c (Proc.devRef .tc main_v3) = src m c := (W4_of_ne m ρ c main_v3 (by decide)).trans (at3_src m ρ c)
theorem at4_dst (c : Dev nD) : W4 m ρ c (Proc.devRef .tc main_v6) = dst m c := (W4_of_ne m ρ c main_v6 (by decide)).trans (at3_dst m ρ c)
theorem at4_arg5 (c : Dev nD) : W4 m ρ c (Proc.devRef .tc main_arg5) = m ((c : Thread nD τ).loc main_arg5) := (W4_of_ne m ρ c main_arg5 (by decide)).trans (at3_arg5 m ρ c)
theorem at4_arg6 (c : Dev nD) : W4 m ρ c (Proc.devRef .tc main_arg6) = m ((c : Thread nD τ).loc main_arg6) := (W4_of_ne m ρ c main_arg6 (by decide)).trans (at3_arg6 m ρ c)

/-! ## Boundary 5: after the second product kernel -/

theorem at5_p2 (c : Dev nD) : W5 m ρ c (Proc.devRef .tc main_v59) = p2 m c := by
  refine (W5_arr m ρ c 2).trans ?_
  rw [Region2.result (V4 m ρ) c]
  show dense (W4 m ρ c (Proc.devRef .tc main_v58)) (W4 m ρ c (Proc.devRef .tc main_arg5)) = _
  rw [at4_h1, at4_arg5]
theorem at5_src (c : Dev nD) : W5 m ρ c (Proc.devRef .tc main_v3) = src m c := (W5_of_ne m ρ c main_v3 (by decide)).trans (at4_src m ρ c)
theorem at5_dst (c : Dev nD) : W5 m ρ c (Proc.devRef .tc main_v6) = dst m c := (W5_of_ne m ρ c main_v6 (by decide)).trans (at4_dst m ρ c)
theorem at5_arg6 (c : Dev nD) : W5 m ρ c (Proc.devRef .tc main_arg6) = m ((c : Thread nD τ).loc main_arg6) := (W5_of_ne m ρ c main_arg6 (by decide)).trans (at4_arg6 m ρ c)

/-! ## Boundary 6: after the third host stretch -/

theorem at6_a2 (c : Dev nD) : W6 m ρ c (Proc.devRef .tc main_v102) = a2 m c := by
  refine (Stretch.hostOps3_aggregate (W5 m ρ c)).trans ?_
  rw [at5_p2, at5_src, at5_dst]
theorem at6_arg6 (c : Dev nD) : W6 m ρ c (Proc.devRef .tc main_arg6) = m ((c : Thread nD τ).loc main_arg6) := (Stretch.hostOps3_keeps_arg6 (W5 m ρ c)).trans (at5_arg6 m ρ c)

/-! ## Boundary 7: after the second bias kernel -/

/-- The result array at the end of the run is the network's output. -/
theorem at7_out (c : Dev nD) : W7 m ρ c (Proc.devRef .tc main_v103) = out m c := by
  refine (W7_arr m ρ c 2).trans ?_
  rw [Region3.result (V6 m ρ) c]
  show biasRelu (W6 m ρ c (Proc.devRef .tc main_v102)) (W6 m ρ c (Proc.devRef .tc main_arg6)) = _
  rw [at6_a2, at6_arg6]

end Cert.Gcn.KernelValue

end
-- ==== Proof.RefValue.lean ====
/-
  The reference program's result is the network of the specification.

  The reference is one host program: the same index rows, embedding lookup and aggregations, with each dense piece a
  whole-array operation — the product with the weights, the bias row broadcast over all nodes and added, the maximum
  with zero.  Its result, as the composed term of its operations applied to the arguments, is the specification's
  `net` once the pieces' names are opened: the two are the same expression.
-/
import proofs.«173930_j69329362092401_1_alg».proof.Proof.Gen.ReferenceIdeal.Run
import proofs.«173930_j69329362092401_1_alg».proof.Proof.Spec

set_option maxRecDepth 16384

noncomputable section

namespace Cert.Gcn.RefValue

open Idealize.ShloMosaic Idealize.ShloMosaic.TcCoe Idealize.SL.Sem
open Cert.ReferenceIdeal Cert.Gcn

variable {F : FTy → Type} [FloatOps F]

theorem result_eq_net (m : (ℓ : Loc nD τ sig) → Buf (Elt F) ℓ) (c : Dev nD) :
    Cert.ReferenceIdeal.Value.res_main_v109 (F := F) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v109
  rfl

end Cert.Gcn.RefValue

end
-- ==== Proof.lean ====
/-
  A two-layer graph-convolution network: the tiled kernel program against its array-library reference.

  Both programs compute  relu (A (relu (A (emb[x] · W1) + b1) · W2) + b2),  A the degree-normalised aggregation over the
  edges with one self-loop per node (Proof/Spec.lean states it as one function `net` of the seven arguments).  Their
  host parts — index rows, embedding lookup, degrees, message weights, gather and scatter-add — are operation for operation
  the same.  They differ in the two dense pieces of each layer: the kernel program computes the product with the weights
  and the bias-and-clamp in tiles of 5000 node rows (narrowing the product's operands to a shorter float format first,
  the identity on extended reals, and accumulating into zero), the reference in one whole-array operation each.  A tile's
  entry is the whole-array piece's entry in the same row and column (Proof/Blocks.lean), the tiles cover the rows
  (Proof/Region0 … Region3), so each kernel leaves its whole-array piece of what it was given, and the kernel program's
  result, followed through its seven segments, is `net` of the arguments (Proof/KernelValue.lean); the reference's
  result is the same expression (Proof/RefValue.lean).  No algebraic law beyond reading the products entry by entry is
  used, so the finiteness of the inputs is never opened.
-/
import proofs.«173930_j69329362092401_1_alg».proof.Defs
import proofs.«173930_j69329362092401_1_alg».proof.Proof.Gen.Kernel
import proofs.«173930_j69329362092401_1_alg».proof.Proof.Gen.Kernel.Frame
import proofs.«173930_j69329362092401_1_alg».proof.Proof.Gen.KernelIdeal
import proofs.«173930_j69329362092401_1_alg».proof.Proof.Gen.KernelIdeal.Frame
import proofs.«173930_j69329362092401_1_alg».proof.Proof.Gen.ReferenceIdeal
import proofs.«173930_j69329362092401_1_alg».proof.Proof.Gen.ReferenceIdeal.Run
import proofs.«173930_j69329362092401_1_alg».proof.Proof.Gen.Pre_finite_inputs
import proofs.«173930_j69329362092401_1_alg».proof.Proof.RunNamed
import proofs.«173930_j69329362092401_1_alg».proof.Proof.KernelValue
import proofs.«173930_j69329362092401_1_alg».proof.Proof.RefValue

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network's output of those arguments. -/
theorem algebraic : Cert.algebraic_KernelIdeal_ReferenceIdeal := by
  intro m ρ m' ρ' _ hagree
  refine ⟨fun c => Cert.Gcn.KernelValue.out m c, ?_, ?_⟩
  · exact (θ_run Cert.KernelIdeal.defs _ _).mono
      (fun r h c => ⟨(h c).1.trans (Cert.Gcn.KernelValue.at7_out m ρ c), (h c).2⟩)
      (Cert.KernelIdeal.GenNamed.run_named (F := Ideal) m ρ)
  · refine (θ_run Cert.ReferenceIdeal.defs _ _).mono (fun r h c => ⟨(h c).1.trans ?_, (h c).2⟩)
      (Cert.ReferenceIdeal.Value.run (F := Ideal) m' ρ')
    refine (Cert.Gcn.RefValue.result_eq_net m' c).trans ?_
    refine Eq.trans ?_ (Cert.Gcn.KernelValue.out_eq_net m c).symm
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
